-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x4096x64 : Shape := ⟨4, ![1, 8, 4096, 64]⟩
abbrev S_ : Shape := ⟨0, ![]⟩

class Facts : Prop where
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  h_S_ : 0 < S_.numel

variable [Facts]

def fn {F : FTy → Type} [FloatOps F] (main_arg0 : FVec F S1x8x4096x64 .f32) (main_arg1 : FVec F S1x8x4096x64 .f32) (main_arg2 : FVec F S1x8x4096x64 .f32) : IVec S_ 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_c : IVec S_ 1 := constantI S_ 1 1#1
  let main_v3 : IVec S_ 1 := (fun x v => Host.reduce IntOp.andi x v reducesTo_S1x8x4096x64_S_d0_1_2_3 h_S_) main_v2 main_c
  let main_v4 : FVec F S1x8x4096x64 .f32 := Host.absf main_arg1
  let main_cst_0 : FVec F S_ .f32 := constant S_ .f32 0x7F800000#32
  let main_v5 : FVec F S1x8x4096x64 .f32 := broadcastInDim S1x8x4096x64 ![] bcast_S_S1x8x4096x64 main_cst_0
  let main_v6 : IVec S1x8x4096x64 1 := cmpf .olt main_v4 main_v5
  let main_c_1 : IVec S_ 1 := constantI S_ 1 1#1
  let main_v7 : IVec S_ 1 := (fun x v => Host.reduce IntOp.andi x v reducesTo_S1x8x4096x64_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  main_v13
-- ==== Kernel.lean ====
abbrev S1x8x4096x64 : Shape := ⟨4, ![1, 8, 4096, 64]⟩
abbrev S8x4096x64 : Shape := ⟨3, ![8, 4096, 64]⟩
abbrev S8x64x64 : Shape := ⟨3, ![8, 64, 64]⟩
abbrev S1x4096x64 : Shape := ⟨3, ![1, 4096, 64]⟩
abbrev S1x64x64 : Shape := ⟨3, ![1, 64, 64]⟩
abbrev S4096x64 : Shape := ⟨2, ![4096, 64]⟩
abbrev S64x64 : Shape := ⟨2, ![64, 64]⟩

abbrev nBuf : Space → Nat
  | .hbm => 9
  | .vmem => 12
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S8x4096x64, .f32⟩
  | .hbm, ⟨4, _⟩ => ⟨S8x4096x64, .f32⟩
  | .hbm, ⟨5, _⟩ => ⟨S8x4096x64, .f32⟩
  | .hbm, ⟨6, _⟩ => ⟨S8x64x64, .f32⟩
  | .hbm, ⟨7, _⟩ => ⟨S8x4096x64, .f32⟩
  | .hbm, ⟨8, _⟩ => ⟨S1x8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x64x64, .f32⟩
  | .local _ .vmem, ⟨5, _⟩ => ⟨S1x64x64, .f32⟩
  | .local _ .vmem, ⟨6, _⟩ => ⟨S1x4096x64, .f32⟩
  | .local _ .vmem, ⟨7, _⟩ => ⟨S1x4096x64, .f32⟩
  | .local _ .vmem, ⟨8, _⟩ => ⟨S1x64x64, .f32⟩
  | .local _ .vmem, ⟨9, _⟩ => ⟨S1x64x64, .f32⟩
  | .local _ .vmem, ⟨10, _⟩ => ⟨S1x4096x64, .f32⟩
  | .local _ .vmem, ⟨11, _⟩ => ⟨S1x4096x64, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x8x4096x64_S8x4096x64 : S1x8x4096x64.ShapeCasts S8x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  shapeCasts_S4096x64_S1x4096x64 : S4096x64.ShapeCasts S1x4096x64
  shapeCasts_S8x4096x64_S1x8x4096x64 : S8x4096x64.ShapeCasts S1x8x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x4096x64.size a
  hwx0_0 : ∀ i : grid0.Coords, EltTy.bits .f32 = 32 ∨ (Rect.block (s := S8x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S8x64x64.size a
  hwx0_2 : ∀ i : grid0.Coords, EltTy.bits .f32 = 32 ∨ (Rect.block (s := S8x64x64) S1x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S8x4096x64.size a
  hwx1_0 : ∀ i : grid1.Coords, EltTy.bits .f32 = 32 ∨ (Rect.block (s := S8x4096x64) S1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S8x64x64.size a
  hwx1_1 : ∀ i : grid1.Coords, EltTy.bits .f32 = 32 ∨ (Rect.block (s := S8x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S8x4096x64.size a
  hwx1_2 : ∀ i : grid1.Coords, EltTy.bits .f32 = 32 ∨ (Rect.block (s := S8x4096x64) S1x4096x64.size (cc1_transform_2 i) (hinb1_2 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x8x4096x64 : Shape := ⟨4, ![1, 8, 4096, 64]⟩
abbrev S1x8x4096x4096 : Shape := ⟨4, ![1, 8, 4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x8x4096x64, .f32⟩
  | .hbm, ⟨3, _⟩ => ⟨S1x8x4096x4096, .f32⟩
  | .hbm, ⟨4, _⟩ => ⟨S_, .f32⟩
  | .hbm, ⟨5, _⟩ => ⟨S1x8x4096x4096, .f32⟩
  | .hbm, ⟨6, _⟩ => ⟨S1x8x4096x4096, .f32⟩
  | .hbm, ⟨7, _⟩ => ⟨S1x8x4096x64, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S1x8x4096x4096 : S_.BroadcastsInDim S1x8x4096x4096 (![] : Fin 0 → Fin S1x8x4096x4096.rank)
  dot_S1x8x4096x64_S1x8x4096x64_S1x8x4096x4096_3_3_2_2_01_01_wf : DotDims.WF S1x8x4096x64 S1x8x4096x64 S1x8x4096x4096 [3] [3] [2] [2] [0, 1] [0, 1]
  dot_S1x8x4096x4096_S1x8x4096x64_S1x8x4096x64_3_2_2_3_01_01_wf : DotDims.WF S1x8x4096x4096 S1x8x4096x64 S1x8x4096x64 [3] [2] [2] [3] [0, 1] [0, 1]

variable [Facts₀]

def dot_S1x8x4096x64_S1x8x4096x64_S1x8x4096x4096_3_3_2_2_01_01 : DotDims S1x8x4096x64 S1x8x4096x64 S1x8x4096x4096 where
  lhsContracting := [3]
  rhsContracting := [3]
  lhsNonContracting := [2]
  rhsNonContracting := [2]
  lhsBatch := [0, 1]
  rhsBatch := [0, 1]
  wf := dot_S1x8x4096x64_S1x8x4096x64_S1x8x4096x4096_3_3_2_2_01_01_wf
def dot_S1x8x4096x4096_S1x8x4096x64_S1x8x4096x64_3_2_2_3_01_01 : DotDims S1x8x4096x4096 S1x8x4096x64 S1x8x4096x64 where
  lhsContracting := [3]
  rhsContracting := [2]
  lhsNonContracting := [2]
  rhsNonContracting := [3]
  lhsBatch := [0, 1]
  rhsBatch := [0, 1]
  wf := dot_S1x8x4096x4096_S1x8x4096x64_S1x8x4096x64_3_2_2_3_01_01_wf

class Facts : Prop extends Facts₀ where

variable [Facts]
-- ==== Proof.Payloads.lean ====
/-
  What each kernel body stores, read at an index of its block, at the ideal instance.

  The first body loads one head's keys and values as [1, 4096, 64] blocks, views them as 4096 × 64 matrices, contracts
  them over the sequence axis into a zero accumulator and scales the 64 × 64 result by the constant 0.125. So the entry
  (e, d) of what it stores is `(∑ t, K t e * V t d) * 0.125`.

  The second body loads one head's queries as a [1, 4096, 64] block and that head's 64 × 64 matrix, and multiplies them
  into a zero accumulator: the entry (s, d) of what it stores is `∑ e, Q s e * M e d`.

  A matrix product into a zero accumulator is, at the ideal instance, the plain sum over the contracted axis; the sum
  over the one-axis contraction index is re-indexed to `Fin 4096`, respectively `Fin 64`, and each operand's index
  is identified coordinate by coordinate.
-/
import proofs.«149450_j89421219103270_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-! ## Keys against values: the contraction over the sequence axis -/

theorem ktv_lhs_0 (j : S64x64.Idx) (q : dot_S4096x64_S4096x64_S64x64_0_0_1_1_n_n.contr.Idx) :
    (dot_S4096x64_S4096x64_S64x64_0_0_1_1_n_n.lhsIdx j q 0).val = (q ⟨0, by decide⟩).val :=
  dot_S4096x64_S4096x64_S64x64_0_0_1_1_n_n.lhsIdx_val_of_single rfl j q
theorem ktv_lhs_1 (j : S64x64.Idx) (q : dot_S4096x64_S4096x64_S64x64_0_0_1_1_n_n.contr.Idx) :
    (dot_S4096x64_S4096x64_S64x64_0_0_1_1_n_n.lhsIdx j q 1).val = (j 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem ktv_rhs_0 (j : S64x64.Idx) (q : dot_S4096x64_S4096x64_S64x64_0_0_1_1_n_n.contr.Idx) :
    (dot_S4096x64_S4096x64_S64x64_0_0_1_1_n_n.rhsIdx j q 0).val = (q ⟨0, by decide⟩).val :=
  dot_S4096x64_S4096x64_S64x64_0_0_1_1_n_n.rhsIdx_val_of_single rfl j q
theorem ktv_rhs_1 (j : S64x64.Idx) (q : dot_S4096x64_S4096x64_S64x64_0_0_1_1_n_n.contr.Idx) :
    (dot_S4096x64_S4096x64_S64x64_0_0_1_1_n_n.rhsIdx j q 1).val = (j 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- The product of the transposed keys with the values, into a zero accumulator, at the entry (e, d). -/
theorem ktv_apply (a b : FVec Ideal S4096x64 .f32) (e d : Fin 64) :
    matmul dot_S4096x64_S4096x64_S64x64_0_0_1_1_n_n none a b (constant (F := Ideal) S64x64 .f32 0x00000000#32) (ix2 e d)
      = ∑ t : Fin 4096, a (ix2 t e) * b (ix2 t d) := by
  show FloatOps.matmul dot_S4096x64_S4096x64_S64x64_0_0_1_1_n_n none a b (constant (F := Ideal) S64x64 .f32 0x00000000#32) (ix2 e d) = _
  rw [Ideal.matmul_constant_zero_apply, ← Equiv.sum_comp (ValueIdx.contrEquiv1 dot_S4096x64_S4096x64_S64x64_0_0_1_1_n_n 4096 rfl rfl).symm]
  refine Finset.sum_congr rfl fun t _ => ?_
  have ht := ValueIdx.contrEquiv1_symm_val dot_S4096x64_S4096x64_S64x64_0_0_1_1_n_n 4096 rfl rfl t
  have el : dot_S4096x64_S4096x64_S64x64_0_0_1_1_n_n.lhsIdx (ix2 e d) ((ValueIdx.contrEquiv1 dot_S4096x64_S4096x64_S64x64_0_0_1_1_n_n 4096 rfl rfl).symm t) = ix2 t e := funext fun x => Fin.ext (by
    match x with
    | ⟨0, _⟩ => exact (ktv_lhs_0 _ _).trans ht
    | ⟨1, _⟩ => exact ktv_lhs_1 _ _)
  have er : dot_S4096x64_S4096x64_S64x64_0_0_1_1_n_n.rhsIdx (ix2 e d) ((ValueIdx.contrEquiv1 dot_S4096x64_S4096x64_S64x64_0_0_1_1_n_n 4096 rfl rfl).symm t) = ix2 t d := funext fun x => Fin.ext (by
    match x with
    | ⟨0, _⟩ => exact (ktv_rhs_0 _ _).trans ht
    | ⟨1, _⟩ => exact ktv_rhs_1 _ _)
  rw [el, er]

/-- What the first body stores, at the entry (e, d) of its [1, 64, 64] block. -/
theorem ktv_pay (x0 x1 : Vec Ideal S1x4096x64 .f32) (z : Fin 1) (e d : Fin 64) :
    k0_pay1 (F := Ideal) x0 x1 (ix3 z e d)
      = (∑ t : Fin 4096, x0 (ix3 0 t e) * x1 (ix3 0 t d)) * Ideal.ofBits .f32 0x3E000000#32 := by
  unfold k0_pay1
  refine (shapeCast_apply _ _ (ix3 z e d) (ix2 e d) ?_).trans ?_
  · rw [Shape.rowMajor_val_two, Shape.rowMajor_val_three]
    show e.val * 64 + d.val = (z.val * 64 + e.val) * 64 + d.val
    have := z.isLt; omega
  refine (mulf_apply _ _ _).trans ?_
  refine congrArg₂ (· * ·) ((ktv_apply _ _ e d).trans ?_) rfl
  refine Finset.sum_congr rfl fun t _ => ?_
  refine congrArg₂ (· * ·) (shapeCast_apply _ _ (ix2 t e) (ix3 0 t e) ?_) (shapeCast_apply _ _ (ix2 t d) (ix3 0 t d) ?_)
  · rw [Shape.rowMajor_val_two, Shape.rowMajor_val_three]
    show ((0 : Fin 1).val * 4096 + t.val) * 64 + e.val = t.val * 64 + e.val
    simp
  · rw [Shape.rowMajor_val_two, Shape.rowMajor_val_three]
    show ((0 : Fin 1).val * 4096 + t.val) * 64 + d.val = t.val * 64 + d.val
    simp

/-! ## Queries against the 64 × 64 matrix -/

theorem qm_lhs_0 (j : S4096x64.Idx) (q : dot_S4096x64_S64x64_S4096x64_1_0_0_1_n_n.contr.Idx) :
    (dot_S4096x64_S64x64_S4096x64_1_0_0_1_n_n.lhsIdx j q 0).val = (j 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem qm_lhs_1 (j : S4096x64.Idx) (q : dot_S4096x64_S64x64_S4096x64_1_0_0_1_n_n.contr.Idx) :
    (dot_S4096x64_S64x64_S4096x64_1_0_0_1_n_n.lhsIdx j q 1).val = (q ⟨0, by decide⟩).val :=
  dot_S4096x64_S64x64_S4096x64_1_0_0_1_n_n.lhsIdx_val_of_single rfl j q
theorem qm_rhs_0 (j : S4096x64.Idx) (q : dot_S4096x64_S64x64_S4096x64_1_0_0_1_n_n.contr.Idx) :
    (dot_S4096x64_S64x64_S4096x64_1_0_0_1_n_n.rhsIdx j q 0).val = (q ⟨0, by decide⟩).val :=
  dot_S4096x64_S64x64_S4096x64_1_0_0_1_n_n.rhsIdx_val_of_single rfl j q
theorem qm_rhs_1 (j : S4096x64.Idx) (q : dot_S4096x64_S64x64_S4096x64_1_0_0_1_n_n.contr.Idx) :
    (dot_S4096x64_S64x64_S4096x64_1_0_0_1_n_n.rhsIdx j q 1).val = (j 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product of the queries with the matrix, into a zero accumulator, at the entry (s, d). -/
theorem qm_apply (a : FVec Ideal S4096x64 .f32) (b : FVec Ideal S64x64 .f32) (s : Fin 4096) (d : Fin 64) :
    matmul dot_S4096x64_S64x64_S4096x64_1_0_0_1_n_n none a b (constant (F := Ideal) S4096x64 .f32 0x00000000#32) (ix2 s d)
      = ∑ e : Fin 64, a (ix2 s e) * b (ix2 e d) := by
  show FloatOps.matmul dot_S4096x64_S64x64_S4096x64_1_0_0_1_n_n none a b (constant (F := Ideal) S4096x64 .f32 0x00000000#32) (ix2 s d) = _
  rw [Ideal.matmul_constant_zero_apply, ← Equiv.sum_comp (ValueIdx.contrEquiv1 dot_S4096x64_S64x64_S4096x64_1_0_0_1_n_n 64 rfl rfl).symm]
  refine Finset.sum_congr rfl fun e _ => ?_
  have he := ValueIdx.contrEquiv1_symm_val dot_S4096x64_S64x64_S4096x64_1_0_0_1_n_n 64 rfl rfl e
  have el : dot_S4096x64_S64x64_S4096x64_1_0_0_1_n_n.lhsIdx (ix2 s d) ((ValueIdx.contrEquiv1 dot_S4096x64_S64x64_S4096x64_1_0_0_1_n_n 64 rfl rfl).symm e) = ix2 s e := funext fun x => Fin.ext (by
    match x with
    | ⟨0, _⟩ => exact qm_lhs_0 _ _
    | ⟨1, _⟩ => exact (qm_lhs_1 _ _).trans he)
  have er : dot_S4096x64_S64x64_S4096x64_1_0_0_1_n_n.rhsIdx (ix2 s d) ((ValueIdx.contrEquiv1 dot_S4096x64_S64x64_S4096x64_1_0_0_1_n_n 64 rfl rfl).symm e) = ix2 e d := funext fun x => Fin.ext (by
    match x with
    | ⟨0, _⟩ => exact (qm_rhs_0 _ _).trans he
    | ⟨1, _⟩ => exact qm_rhs_1 _ _)
  rw [el, er]

/-- What the second body stores, at the entry (s, d) of its [1, 4096, 64] block. -/
theorem qm_pay (x0 : Vec Ideal S1x4096x64 .f32) (x1 : Vec Ideal S1x64x64 .f32) (z : Fin 1) (s : Fin 4096) (d : Fin 64) :
    k1_pay1 (F := Ideal) x0 x1 (ix3 z s d) = ∑ e : Fin 64, x0 (ix3 0 s e) * x1 (ix3 0 e d) := by
  unfold k1_pay1
  refine (shapeCast_apply _ _ (ix3 z s d) (ix2 s d) ?_).trans ?_
  · rw [Shape.rowMajor_val_two, Shape.rowMajor_val_three]
    show s.val * 64 + d.val = (z.val * 4096 + s.val) * 64 + d.val
    have := z.isLt; omega
  refine (qm_apply _ _ s d).trans ?_
  refine Finset.sum_congr rfl fun e _ => ?_
  refine congrArg₂ (· * ·) (shapeCast_apply _ _ (ix2 s e) (ix3 0 s e) ?_) (shapeCast_apply _ _ (ix2 e d) (ix3 0 e d) ?_)
  · rw [Shape.rowMajor_val_two, Shape.rowMajor_val_three]
    show ((0 : Fin 1).val * 4096 + s.val) * 64 + e.val = s.val * 64 + e.val
    simp
  · rw [Shape.rowMajor_val_two, Shape.rowMajor_val_three]
    show ((0 : Fin 1).val * 64 + e.val) * 64 + d.val = e.val * 64 + d.val
    simp

end Cert.KernelIdeal.Pay

end
-- ==== Proof.KeyValueRegion.lean ====
/-
  The first pallas_call as one function of its arrays, at the ideal instance.

  Its grid has one point per head. At head `h` the two input windows hold row `h` of the keys' and of the values'
  [8, 4096, 64] arrays, and the output window is row `h` of the [8, 64, 64] result. So after the call the result array
  holds, at (h, e, d), the scaled product `(∑ t, K (h, t, e) * V (h, t, d)) * 0.125`: every point writes back its
  block of this one function, and the eight blocks tile the array.
-/
import proofs.«149450_j89421219103270_1_alg».proof.Proof.Gen.KernelIdeal.Frame
import proofs.«149450_j89421219103270_1_alg».proof.Proof.Payloads

set_option maxRecDepth 16384

noncomputable section

namespace Cert.KernelIdeal.KeyValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The scaled product of the transposed keys with the values, head by head. -/
def scaledKtV (K W : S8x4096x64.Idx → Elt Ideal .f32) : S8x64x64.Idx → Elt Ideal .f32 :=
  fun i => (∑ t : Fin 4096, K (ix3 (i 0) t (i 1)) * W (ix3 (i 0) t (i 2))) * Ideal.ofBits .f32 0x3E000000#32

theorem zeros3 : (![0, 0, 0] : Fin 3 → Nat) = fun _ => 0 := funext fun a => by fin_cases a <;> rfl

/-- The printed index maps over the grid: every window's block index is (the point, 0, 0). -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The head a grid point works on. -/
def head (t : Fin cfg0.N) : Fin 8 := t.cast N_0

/-- The keys' block at a point is the head's row of the keys' array. -/
theorem keys_block (c : Dev nD) (t : Fin cfg0.N) (z : Fin 1) (s : Fin 4096) (e : Fin 64) :
    iblk0 V c 0 t (ix3 z s e) = V c main_v1 (ix3 (head t) s e) := by
  show V c main_v1 (((cfg0.win 0).blk t).view.emb (ix3 z s e)) = V c main_v1 (ix3 (head t) s e)
  refine congrArg _ (funext fun a => Fin.ext ?_)
  obtain ⟨⟨e0, e1, e2⟩, -, -⟩ := index_facts t
  match a with
  | ⟨0, _⟩ => show win0_0.index t (0 : Fin 3) * 1 + 1 * z.val = t.val; have := z.isLt; omega
  | ⟨1, _⟩ => show win0_0.index t (1 : Fin 3) * 4096 + 1 * s.val = s.val; omega
  | ⟨2, _⟩ => show win0_0.index t (2 : Fin 3) * 64 + 1 * e.val = e.val; omega

/-- The values' block at a point is the head's row of the values' array. -/
theorem values_block (c : Dev nD) (t : Fin cfg0.N) (z : Fin 1) (s : Fin 4096) (d : Fin 64) :
    iblk0 V c 1 t (ix3 z s d) = V c main_v2 (ix3 (head t) s d) := by
  show V c main_v2 (((cfg0.win 1).blk t).view.emb (ix3 z s d)) = V c main_v2 (ix3 (head t) s d)
  refine congrArg _ (funext fun a => Fin.ext ?_)
  obtain ⟨-, ⟨e0, e1, e2⟩, -⟩ := index_facts t
  match a with
  | ⟨0, _⟩ => show win0_1.index t (0 : Fin 3) * 1 + 1 * z.val = t.val; have := z.isLt; omega
  | ⟨1, _⟩ => show win0_1.index t (1 : Fin 3) * 4096 + 1 * s.val = s.val; omega
  | ⟨2, _⟩ => show win0_1.index t (2 : Fin 3) * 64 + 1 * d.val = d.val; omega

/-- Where the output block's entry `j` at a point lies in the result array: (the head, j 1, j 2). -/
theorem out_emb (t : Fin cfg0.N) (j : S1x64x64.Idx) :
    ((cfg0.win 2).blk t).view.emb j = (ix3 (head t) (j 1) (j 2) : S8x64x64.Idx) := by
  refine funext fun a => Fin.ext ?_
  obtain ⟨-, -, ⟨e0, e1, e2⟩⟩ := index_facts t
  have hz : (j 0).val < 1 := (j 0).isLt
  match a with
  | ⟨0, _⟩ => show win0_2.index t (0 : Fin 3) * 1 + 1 * (j 0).val = t.val; omega
  | ⟨1, _⟩ => show win0_2.index t (1 : Fin 3) * 64 + 1 * (j 1).val = (j 1).val; omega
  | ⟨2, _⟩ => show win0_2.index t (2 : Fin 3) * 64 + 1 * (j 2).val = (j 2).val; omega

/-- One point's stored block against the scaled product, over plain vectors: if the two loaded blocks are row `h` of
    the arrays `K` and `W`, the stored entry `j` is the scaled product at (h, j 1, j 2). -/
theorem point_value (x0 x1 : Vec Ideal S1x4096x64 .f32) (K W : S8x4096x64.Idx → Elt Ideal .f32) (h : Fin 8)
    (hk : ∀ (s : Fin 4096) (e : Fin 64), x0 (ix3 0 s e) = K (ix3 h s e))
    (hv : ∀ (s : Fin 4096) (d : Fin 64), x1 (ix3 0 s d) = W (ix3 h s d))
    (j : S1x64x64.Idx) (i : S8x64x64.Idx) (hi : i = ix3 h (j 1) (j 2)) :
    k0_pay1 (F := Ideal) x0 x1 j = scaledKtV K W i := by
  subst hi
  obtain ⟨z, e, d, rfl⟩ : ∃ (z : Fin 1) (e d : Fin 64), j = ix3 z e d := ⟨j 0, j 1, j 2, eq_ix3 j⟩
  rw [Pay.ktv_pay]
  unfold scaledKtV
  refine congrArg₂ (· * ·) (Finset.sum_congr rfl fun s _ => ?_) rfl
  rw [hk, hv]

/-- What a point writes back is its block of the scaled product. -/
theorem flushed_eq (c : Dev nD) (t : Fin cfg0.N) :
    (dat0 V c).flushed 2 t = ((cfg0.win 2).blk t).view.read (Elt Ideal) (scaledKtV (V c main_v1) (V c main_v2)) := by
  show (cfg0.win 2).cut (grid0.coords t) ((dat0 V c).after 2 t) = _
  rw [after0_2]
  unfold out0_2
  rw [View.canon_unit_zero zeros3]
  simp only [View.ld_unit_zero (S := S1x4096x64) zeros3]
  funext j
  show k0_pay1 (iblk0 V c 0 t) (iblk0 V c 1 t) j = scaledKtV (V c main_v1) (V c main_v2) (((cfg0.win 2).blk t).view.emb j)
  exact point_value (iblk0 V c 0 t) (iblk0 V c 1 t) (V c main_v1) (V c main_v2) (head t)
    (fun s e => keys_block V c t 0 s e) (fun s d => values_block V c t 0 s d) j _ (out_emb t j)

/-- An index of the result array is in a point's block iff each coordinate is in the block's range on its axis. -/
theorem mem_block (t : Fin cfg0.N) (i : S8x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v3).slice (win0_2.rect t)).set ↔ _
  rw [View.set_slice_whole, Rect.mem_set_unit]
  exact Iff.rfl

/-- Every index of the result array is in the block of the point of its head. -/
theorem cover (i : S8x64x64.Idx) : ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 64 := (i 2).isLt
  refine ⟨(⟨(i 0).val, h0⟩ : Fin 8).cast N_0.symm, flush0_2 _, ?_⟩
  rw [mem_block]
  obtain ⟨-, -, ⟨e0, e1, e2⟩⟩ := index_facts ((⟨(i 0).val, h0⟩ : Fin 8).cast N_0.symm)
  have e0' : win0_2.index ((⟨(i 0).val, h0⟩ : Fin 8).cast N_0.symm) (0 : Fin 3) = (i 0).val := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 64 ≤ (i 1).val ∧ (i 1).val < win0_2.index _ (1 : Fin 3) * 64 + 64; omega
  | ⟨2, _⟩ => show win0_2.index _ (2 : Fin 3) * 64 ≤ (i 2).val ∧ (i 2).val < win0_2.index _ (2 : Fin 3) * 64 + 64; omega

/-- The result array after the call, whatever the region was entered with. -/
theorem array_after (c : Dev nD) :
    (dat0 V c).arrAt 2 cfg0.N = scaledKtV (V c main_v1) (V c main_v2) :=
  (dat0 V c).arrAt_eq_of_cover 2 _ (fun t _ => flushed_eq V c t) cover

end Cert.KernelIdeal.KeyValue

end
-- ==== Proof.QueryRegion.lean ====
/-
  The second pallas_call as one function of its arrays, at the ideal instance.

  Its grid has one point per head. At head `h` the input windows hold row `h` of the queries' [8, 4096, 64] array and
  row `h` of the [8, 64, 64] array of matrices, and the output window is row `h` of the [8, 4096, 64] result. So after
  the call the result array holds, at (h, s, d), the product `∑ e, Q (h, s, e) * M (h, e, d)`: every point writes
  back its block of this one function, and the eight blocks tile the array.
-/
import proofs.«149450_j89421219103270_1_alg».proof.Proof.Gen.KernelIdeal.Frame
import proofs.«149450_j89421219103270_1_alg».proof.Proof.Payloads

set_option maxRecDepth 16384

noncomputable section

namespace Cert.KernelIdeal.Query

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The queries times the per-head matrix, head by head. -/
def queriesTimes (Q : S8x4096x64.Idx → Elt Ideal .f32) (M : S8x64x64.Idx → Elt Ideal .f32) : S8x4096x64.Idx → Elt Ideal .f32 :=
  fun i => ∑ e : Fin 64, Q (ix3 (i 0) (i 1) e) * M (ix3 (i 0) e (i 2))

theorem zeros3 : (![0, 0, 0] : Fin 3 → Nat) = fun _ => 0 := funext fun a => by fin_cases a <;> rfl

/-- The printed index maps over the grid: every window's block index is (the point, 0, 0). -/
theorem index_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0) :=
  (by decide +kernel : ∀ t : Fin grid1.N, _)

/-- The head a grid point works on. -/
def head (t : Fin cfg1.N) : Fin 8 := t.cast N_1

/-- The queries' block at a point is the head's row of the queries' array. -/
theorem queries_block (c : Dev nD) (t : Fin cfg1.N) (z : Fin 1) (s : Fin 4096) (e : Fin 64) :
    iblk1 V c 0 t (ix3 z s e) = V c main_v0 (ix3 (head t) s e) := by
  show V c main_v0 (((cfg1.win 0).blk t).view.emb (ix3 z s e)) = V c main_v0 (ix3 (head t) s e)
  refine congrArg _ (funext fun a => Fin.ext ?_)
  obtain ⟨⟨e0, e1, e2⟩, -, -⟩ := index_facts t
  match a with
  | ⟨0, _⟩ => show win1_0.index t (0 : Fin 3) * 1 + 1 * z.val = t.val; have := z.isLt; omega
  | ⟨1, _⟩ => show win1_0.index t (1 : Fin 3) * 4096 + 1 * s.val = s.val; omega
  | ⟨2, _⟩ => show win1_0.index t (2 : Fin 3) * 64 + 1 * e.val = e.val; omega

/-- The matrix block at a point is the head's row of the array of matrices. -/
theorem matrix_block (c : Dev nD) (t : Fin cfg1.N) (z : Fin 1) (e d : Fin 64) :
    iblk1 V c 1 t (ix3 z e d) = V c main_v3 (ix3 (head t) e d) := by
  show V c main_v3 (((cfg1.win 1).blk t).view.emb (ix3 z e d)) = V c main_v3 (ix3 (head t) e d)
  refine congrArg _ (funext fun a => Fin.ext ?_)
  obtain ⟨-, ⟨e0, e1, e2⟩, -⟩ := index_facts t
  match a with
  | ⟨0, _⟩ => show win1_1.index t (0 : Fin 3) * 1 + 1 * z.val = t.val; have := z.isLt; omega
  | ⟨1, _⟩ => show win1_1.index t (1 : Fin 3) * 64 + 1 * e.val = e.val; omega
  | ⟨2, _⟩ => show win1_1.index t (2 : Fin 3) * 64 + 1 * d.val = d.val; omega

/-- Where the output block's entry `j` at a point lies in the result array: (the head, j 1, j 2). -/
theorem out_emb (t : Fin cfg1.N) (j : S1x4096x64.Idx) :
    ((cfg1.win 2).blk t).view.emb j = (ix3 (head t) (j 1) (j 2) : S8x4096x64.Idx) := by
  refine funext fun a => Fin.ext ?_
  obtain ⟨-, -, ⟨e0, e1, e2⟩⟩ := index_facts t
  have hz : (j 0).val < 1 := (j 0).isLt
  match a with
  | ⟨0, _⟩ => show win1_2.index t (0 : Fin 3) * 1 + 1 * (j 0).val = t.val; omega
  | ⟨1, _⟩ => show win1_2.index t (1 : Fin 3) * 4096 + 1 * (j 1).val = (j 1).val; omega
  | ⟨2, _⟩ => show win1_2.index t (2 : Fin 3) * 64 + 1 * (j 2).val = (j 2).val; omega

/-- One point's stored block against the product, over plain vectors: if the two loaded blocks are row `h` of the
    arrays `Q` and `M`, the stored entry `j` is the product at (h, j 1, j 2). -/
theorem point_value (x0 : Vec Ideal S1x4096x64 .f32) (x1 : Vec Ideal S1x64x64 .f32)
    (Q : S8x4096x64.Idx → Elt Ideal .f32) (M : S8x64x64.Idx → Elt Ideal .f32) (h : Fin 8)
    (hq : ∀ (s : Fin 4096) (e : Fin 64), x0 (ix3 0 s e) = Q (ix3 h s e))
    (hm : ∀ (e d : Fin 64), x1 (ix3 0 e d) = M (ix3 h e d))
    (j : S1x4096x64.Idx) (i : S8x4096x64.Idx) (hi : i = ix3 h (j 1) (j 2)) :
    k1_pay1 (F := Ideal) x0 x1 j = queriesTimes Q M i := by
  subst hi
  obtain ⟨z, s, d, rfl⟩ : ∃ (z : Fin 1) (s : Fin 4096) (d : Fin 64), j = ix3 z s d := ⟨j 0, j 1, j 2, eq_ix3 j⟩
  rw [Pay.qm_pay]
  unfold queriesTimes
  refine Finset.sum_congr rfl fun e _ => ?_
  rw [hq, hm]

/-- What a point writes back is its block of the product. -/
theorem flushed_eq (c : Dev nD) (t : Fin cfg1.N) :
    (dat1 V c).flushed 2 t = ((cfg1.win 2).blk t).view.read (Elt Ideal) (queriesTimes (V c main_v0) (V c main_v3)) := by
  show (cfg1.win 2).cut (grid1.coords t) ((dat1 V c).after 2 t) = _
  rw [after1_2]
  unfold out1_2
  rw [View.canon_unit_zero zeros3]
  simp only [View.ld_unit_zero (S := S1x4096x64) zeros3, View.ld_unit_zero (S := S1x64x64) zeros3]
  funext j
  show k1_pay1 (iblk1 V c 0 t) (iblk1 V c 1 t) j = queriesTimes (V c main_v0) (V c main_v3) (((cfg1.win 2).blk t).view.emb j)
  exact point_value (iblk1 V c 0 t) (iblk1 V c 1 t) (V c main_v0) (V c main_v3) (head t)
    (fun s e => queries_block V c t 0 s e) (fun e d => matrix_block V c t 0 e d) j _ (out_emb t j)

/-- An index of the result array is in a point's block iff each coordinate is in the block's range on its axis. -/
theorem mem_block (t : Fin cfg1.N) (i : S8x4096x64.Idx) :
    i ∈ ((cfg1.win 2).blk t).view.set ↔ ∀ a : Fin 3, win1_2.index t a * S1x4096x64.size a ≤ (i a).val ∧ (i a).val < win1_2.index t a * S1x4096x64.size a + S1x4096x64.size a := by
  show i ∈ ((View.whole main_v4).slice (win1_2.rect t)).set ↔ _
  rw [View.set_slice_whole, Rect.mem_set_unit]
  exact Iff.rfl

/-- Every index of the result array is in the block of the point of its head. -/
theorem cover (i : S8x4096x64.Idx) : ∃ t : Fin cfg1.N, (cfg1.win 2).flush t = true ∧ i ∈ ((cfg1.win 2).blk t).view.set := by
  have h0 : (i 0).val < 8 := (i 0).isLt
  have h1 : (i 1).val < 4096 := (i 1).isLt
  have h2 : (i 2).val < 64 := (i 2).isLt
  refine ⟨(⟨(i 0).val, h0⟩ : Fin 8).cast N_1.symm, flush1_2 _, ?_⟩
  rw [mem_block]
  obtain ⟨-, -, ⟨e0, e1, e2⟩⟩ := index_facts ((⟨(i 0).val, h0⟩ : Fin 8).cast N_1.symm)
  have e0' : win1_2.index ((⟨(i 0).val, h0⟩ : Fin 8).cast N_1.symm) (0 : Fin 3) = (i 0).val := e0
  intro a
  match a with
  | ⟨0, _⟩ => show win1_2.index _ (0 : Fin 3) * 1 ≤ (i 0).val ∧ (i 0).val < win1_2.index _ (0 : Fin 3) * 1 + 1; omega
  | ⟨1, _⟩ => show win1_2.index _ (1 : Fin 3) * 4096 ≤ (i 1).val ∧ (i 1).val < win1_2.index _ (1 : Fin 3) * 4096 + 4096; omega
  | ⟨2, _⟩ => show win1_2.index _ (2 : Fin 3) * 64 ≤ (i 2).val ∧ (i 2).val < win1_2.index _ (2 : Fin 3) * 64 + 64; omega

/-- The result array after the call, whatever the region was entered with. -/
theorem array_after (c : Dev nD) :
    (dat1 V c).arrAt 2 cfg1.N = queriesTimes (V c main_v0) (V c main_v3) :=
  (dat1 V c).arrAt_eq_of_cover 2 _ (fun t _ => flushed_eq V c t) cover

end Cert.KernelIdeal.Query

end
-- ==== Proof.Reassociate.lean ====
/-
  The one algebraic law between the two programs. For one head, with queries `q`, keys `k`, values `v` and a scale `c`:

      ∑ e, q e * ((∑ t, k t e * v t) * c)  =  ∑ t, ((∑ e, q e * k t e) * c) * v t.

  The left side multiplies the query row into the scaled 64 × 64 matrix `Kᵀ V`; the right side first forms the scaled
  row of scores `q Kᵀ` and multiplies it into `V`. Over the reals this is distributivity and the interchange of two
  finite sums. On the extended reals distributivity fails at the infinities, so the law is stated for entries that are
  real numbers; finite sums and products of reals stay real.
-/
import Idealize.ShloMosaic.PureOps.Ideal

namespace Cert.Reassociate

open scoped BigOperators

/-- A finite sum of reals, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: expand both sides into the double sum of `q e * k t e * v t * c` and swap the sums. -/
theorem real_law {T E : Type*} [Fintype T] [Fintype E] (q : E → ℝ) (k : T → E → ℝ) (v : T → ℝ) (c : ℝ) :
    ∑ e, q e * ((∑ t, k t e * v t) * c) = ∑ t, ((∑ e, q e * k t e) * c) * v t := by
  simp only [Finset.sum_mul, Finset.mul_sum]
  rw [Finset.sum_comm]
  exact Finset.sum_congr rfl fun t _ => Finset.sum_congr rfl fun e _ => by ring

/-- The law on the extended reals, for entries that are real numbers. -/
theorem ereal_law {T E : Type*} [Fintype T] [Fintype E] (q : E → EReal) (k : T → E → EReal) (v : T → EReal) (c : EReal)
    (hq : ∀ e, ∃ r : ℝ, q e = r) (hk : ∀ t e, ∃ r : ℝ, k t e = r) (hv : ∀ t, ∃ r : ℝ, v t = r) (hc : ∃ r : ℝ, c = r) :
    ∑ e, q e * ((∑ t, k t e * v t) * c) = ∑ t, ((∑ e, q e * k t e) * c) * v t := by
  choose q' hq' using hq
  choose k' hk' using hk
  choose v' hv' using hv
  obtain ⟨c', rfl⟩ := hc
  simp only [hq', hk', hv', ← EReal.coe_mul, ← coe_sum]
  exact congrArg _ (real_law q' k' v' c')

end Cert.Reassociate
-- ==== Proof.Constants.lean ====
/-
  The two float constants the programs and the precondition spell, as the extended reals their words denote at the
  ideal instance: the f32 word of `+∞` is `⊤`, and the scale `0x3E000000` is the real number 1/8.
-/
import Idealize.ShloMosaic.PureOps.Ideal

noncomputable section

namespace Cert.Constants

open Idealize.ShloMosaic

/-- The f32 word of `+∞` denotes `⊤`. -/
theorem ofBits_inf : Ideal.ofBits .f32 0x7F800000#32 = ⊤ := by simp [Ideal.ofBits, Ideal.ieee]

/-- The scale `0.125` denotes the real number 1/8. -/
theorem ofBits_eighth : Ideal.ofBits .f32 0x3E000000#32 = ((1 / 8 : ℝ) : EReal) := by
  simp [Ideal.ofBits, Ideal.ieee, -EReal.coe_mul]; norm_num

end Cert.Constants

end
-- ==== Proof.Attention.lean ====
/-
  The two whole-array functions of the inputs, and their equality.

  For queries, keys and values of shape [1, 8, 4096, 64] and the scale 1/8, the result at (b, h, s, d) is

    matrix first:  ∑ e, q (b, h, s, e) * ((∑ t, k (b, h, t, e) * v (b, h, t, d)) * 1/8)
    scores first:  ∑ t, ((∑ e, q (b, h, s, e) * k (b, h, t, e)) * 1/8) * v (b, h, t, d).

  The first is how the two pallas_calls compute it (the 64 × 64 matrix of a head, then the queries times it), the second
  how the reference does (the 4096 × 4096 scores of a head, then the scores times the values). With real entries they
  are equal, index by index, by the reassociation law.
-/
import proofs.«149450_j89421219103270_1_alg».proof.Proof.Reassociate
import proofs.«149450_j89421219103270_1_alg».proof.Proof.Constants
import Idealize.ShloMosaic.Lib.ValueIdx

noncomputable section

namespace Cert.Attention

open Idealize.ShloMosaic Idealize.ShloMosaic.ValueIdx

/-- Indices of the [1, 8, 4096, 64] inputs and result. -/
abbrev QIdx : Type := (⟨4, ![1, 8, 4096, 64]⟩ : Shape).Idx

/-- The head's 64 × 64 matrix first, then the queries times it. -/
def matrixFirst (q k v : QIdx → EReal) : QIdx → EReal := fun i =>
  ∑ e : Fin 64, q (ix4 (i 0) (i 1) (i 2) e)
    * ((∑ t : Fin 4096, k (ix4 (i 0) (i 1) t e) * v (ix4 (i 0) (i 1) t (i 3))) * Ideal.ofBits .f32 0x3E000000#32)

/-- The head's scores first, then the scores times the values. -/
def scoresFirst (q k v : QIdx → EReal) : QIdx → EReal := fun i =>
  ∑ t : Fin 4096, ((∑ e : Fin 64, q (ix4 (i 0) (i 1) (i 2) e) * k (ix4 (i 0) (i 1) t e)) * Ideal.ofBits .f32 0x3E000000#32)
    * v (ix4 (i 0) (i 1) t (i 3))

/-- With real entries the two orders agree. -/
theorem matrixFirst_eq_scoresFirst (q k v : QIdx → EReal)
    (hq : ∀ i, ∃ r : ℝ, q i = r) (hk : ∀ i, ∃ r : ℝ, k i = r) (hv : ∀ i, ∃ r : ℝ, v i = r) :
    matrixFirst q k v = scoresFirst q k v := by
  funext i
  exact Cert.Reassociate.ereal_law (fun e : Fin 64 => q (ix4 (i 0) (i 1) (i 2) e))
    (fun (t : Fin 4096) (e : Fin 64) => k (ix4 (i 0) (i 1) t e)) (fun t : Fin 4096 => v (ix4 (i 0) (i 1) t (i 3))) _
    (fun e => hq _) (fun t e => hk _) (fun t => hv _) ⟨_, Cert.Constants.ofBits_eighth⟩

end Cert.Attention

end
-- ==== Proof.KernelValue.lean ====
/-
  The kernel program's result as one function of its three inputs, at the ideal instance.

  @main reshapes each [1, 8, 4096, 64] input to [8, 4096, 64], runs the first pallas_call on the keys and values, the
  second on the queries and the first one's [8, 64, 64] result, and reshapes the [8, 4096, 64] output back. Reading the
  buffer contents at the last boundary backwards through these four stretches — a reshape keeps the row-major position,
  a pallas_call leaves its output array at the function of its input arrays proved for it, and touches nothing else —
  gives the matrix-first function of the launch contents of the inputs.
-/
import proofs.«149450_j89421219103270_1_alg».proof.Proof.Gen.KernelIdeal.Frame
import proofs.«149450_j89421219103270_1_alg».proof.Proof.KeyValueRegion
import proofs.«149450_j89421219103270_1_alg».proof.Proof.QueryRegion
import proofs.«149450_j89421219103270_1_alg».proof.Proof.Attention
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The reshape [1, 8, 4096, 64] → [8, 4096, 64] read at (h, s, e) is the operand at (0, h, s, e). -/
theorem merged_apply (x : S1x8x4096x64.Idx → Elt Ideal .f32) (hc : S1x8x4096x64.ShapeCasts S8x4096x64)
    (h : Fin 8) (s : Fin 4096) (e : Fin 64) :
    shapeCast S8x4096x64 x hc (ix3 h s e) = x (ix4 0 h s e) :=
  shapeCast_apply _ _ _ _ (by
    rw [Shape.rowMajor_val_three, Shape.rowMajor_val_four]
    show ((((0 : Fin 1).val * 8 + h.val) * 4096 + s.val) * 64 + e.val) = (h.val * 4096 + s.val) * 64 + e.val
    simp)

/-- The reshape [8, 4096, 64] → [1, 8, 4096, 64] read at (0, h, s, d) is the operand at (h, s, d). -/
theorem split_apply (x : S8x4096x64.Idx → Elt Ideal .f32) (hc : S8x4096x64.ShapeCasts S1x8x4096x64)
    (h : Fin 8) (s : Fin 4096) (d : Fin 64) :
    shapeCast S1x8x4096x64 x hc (ix4 0 h s d) = x (ix3 h s d) :=
  shapeCast_apply _ _ _ _ (by
    rw [Shape.rowMajor_val_three, Shape.rowMajor_val_four]
    show (h.val * 4096 + s.val) * 64 + d.val = ((((0 : Fin 1).val * 8 + h.val) * 4096 + s.val) * 64 + d.val)
    simp)

/-- The first call is entered with the queries', keys' and values' buffers at the reshaped inputs. -/
theorem queries_entry (c : Dev nD) (h : Fin 8) (s : Fin 4096) (e : Fin 64) :
    V1 m ρ c main_v0 (ix3 h s e) = m ((c : Thread nD τ).loc main_arg0) (ix4 0 h s e) := by
  have e1 : (V1 m ρ c main_v0 : S8x4096x64.Idx → Elt Ideal .f32)
      = shapeCast S8x4096x64 (m ((c : Thread nD τ).loc main_arg0)) Facts₀.shapeCasts_S1x8x4096x64_S8x4096x64 := by
    show StableHlo.after hostOps0 (W0 m ρ c) (Proc.devRef .tc main_v0) = _
    after_results; rfl
  rw [e1]; exact merged_apply _ _ h s e
theorem keys_entry (c : Dev nD) (h : Fin 8) (s : Fin 4096) (e : Fin 64) :
    V1 m ρ c main_v1 (ix3 h s e) = m ((c : Thread nD τ).loc main_arg1) (ix4 0 h s e) := by
  have e1 : (V1 m ρ c main_v1 : S8x4096x64.Idx → Elt Ideal .f32)
      = shapeCast S8x4096x64 (m ((c : Thread nD τ).loc main_arg1)) Facts₀.shapeCasts_S1x8x4096x64_S8x4096x64 := by
    show StableHlo.after hostOps0 (W0 m ρ c) (Proc.devRef .tc main_v1) = _
    after_results; rfl
  rw [e1]; exact merged_apply _ _ h s e
theorem values_entry (c : Dev nD) (h : Fin 8) (s : Fin 4096) (e : Fin 64) :
    V1 m ρ c main_v2 (ix3 h s e) = m ((c : Thread nD τ).loc main_arg2) (ix4 0 h s e) := by
  have e1 : (V1 m ρ c main_v2 : S8x4096x64.Idx → Elt Ideal .f32)
      = shapeCast S8x4096x64 (m ((c : Thread nD τ).loc main_arg2)) Facts₀.shapeCasts_S1x8x4096x64_S8x4096x64 := by
    show StableHlo.after hostOps0 (W0 m ρ c) (Proc.devRef .tc main_v2) = _
    after_results; rfl
  rw [e1]; exact merged_apply _ _ h s e

/-- The result buffer at the last boundary is the matrix-first function of the inputs as launched. -/
theorem result_value (c : Dev nD) :
    (W4 m ρ c (Proc.devRef .tc main_v5) : S1x8x4096x64.Idx → Elt Ideal .f32)
      = Cert.Attention.matrixFirst (m ((c : Thread nD τ).loc main_arg0)) (m ((c : Thread nD τ).loc main_arg1))
          (m ((c : Thread nD τ).loc main_arg2)) := by
  have e5 : (W4 m ρ c (Proc.devRef .tc main_v5) : S1x8x4096x64.Idx → Elt Ideal .f32)
      = shapeCast S1x8x4096x64 (W3 m ρ c (Proc.devRef .tc main_v4)) Facts₀.shapeCasts_S8x4096x64_S1x8x4096x64 := by
    show StableHlo.after hostOps2 (W3 m ρ c) (Proc.devRef .tc main_v5) = _
    after_results; rfl
  have e4 : (W3 m ρ c (Proc.devRef .tc main_v4) : S8x4096x64.Idx → Elt Ideal .f32)
      = Query.queriesTimes (V2 m ρ c main_v0) (V2 m ρ c main_v3) :=
    (W3_arr m ρ c 2).trans (Query.array_after (V2 m ρ) c)
  have e3 : (V2 m ρ c main_v3 : S8x64x64.Idx → Elt Ideal .f32)
      = KeyValue.scaledKtV (V1 m ρ c main_v1) (V1 m ρ c main_v2) :=
    (W2_arr m ρ c 2).trans (KeyValue.array_after (V1 m ρ) c)
  have e0 : (V2 m ρ c main_v0 : S8x4096x64.Idx → Elt Ideal .f32) = V1 m ρ c main_v0 :=
    W2_of_ne m ρ c main_v0 (by decide)
  funext i
  obtain ⟨z, h, s, d, rfl⟩ : ∃ (z : Fin 1) (h : Fin 8) (s : Fin 4096) (d : Fin 64), i = ix4 z h s d :=
    ⟨i 0, i 1, i 2, i 3, eq_ix4 i⟩
  obtain rfl : z = 0 := Subsingleton.elim _ _
  rw [e5, split_apply, e4]
  unfold Query.queriesTimes Cert.Attention.matrixFirst
  show (_ : EReal) = (_ : EReal)
  refine Finset.sum_congr rfl fun e _ => ?_
  rw [e0, e3]
  unfold KeyValue.scaledKtV
  show (_ : EReal) = (_ : EReal)
  refine congrArg₂ (· * ·) (queries_entry m ρ c h s e) (congrArg₂ (· * ·) (Finset.sum_congr rfl fun t _ => ?_) rfl)
  exact congrArg₂ (· * ·) (keys_entry m ρ c h t e) (values_entry m ρ c h t d)

end Cert.KernelIdeal.Whole

end
-- ==== Proof.Reference.lean ====
/-
  The reference program's result as one function of its three inputs, at the ideal instance.

  The reference contracts the queries with the keys over the feature axis, head by head (the 4096 × 4096 scores),
  multiplies by the constant 0.125 and contracts the scores with the values over the sequence axis. Read at an index
  (b, h, s, d), one operation at a time, that is the scores-first function.
-/
import proofs.«149450_j89421219103270_1_alg».proof.Proof.Gen.ReferenceIdeal.Run
import proofs.«149450_j89421219103270_1_alg».proof.Proof.Gen.ReferenceIdeal.Read
import proofs.«149450_j89421219103270_1_alg».proof.Proof.Attention

noncomputable section

namespace Cert.ReferenceIdeal.RefValue

open Cert.ReferenceIdeal Cert.ReferenceIdeal.Gen Cert.ReferenceIdeal.Read Idealize.ShloMosaic Idealize.ShloMosaic.ValueIdx

/-- The reference's last stage is the scores-first function of the inputs. -/
theorem reference_value (q k v : (⟨S1x8x4096x64, .f32⟩ : BufTy).Contents (Elt Ideal)) :
    val_main_v3 (F := Ideal) q k v = Cert.Attention.scoresFirst q k v := by
  funext i
  obtain ⟨z, h, s, d, rfl⟩ : ∃ (z : Fin 1) (h : Fin 8) (s : Fin 4096) (d : Fin 64), i = ix4 z h s d :=
    ⟨i 0, i 1, i 2, i 3, eq_ix4 i⟩
  rw [val_main_v3_apply]
  show _ = ∑ t : Fin 4096, ((∑ e : Fin 64, q (ix4 z h s e) * k (ix4 z h t e)) * Ideal.ofBits .f32 0x3E000000#32) * v (ix4 z h t d)
  refine Finset.sum_congr rfl fun t _ => ?_
  have a3 : ridx_main_v3 (ix4 z h s d) t = ix4 z h t d := funext fun a => Fin.ext (by
    match a with
    | ⟨0, _⟩ => rfl
    | ⟨1, _⟩ => rfl
    | ⟨2, _⟩ => rfl
    | ⟨3, _⟩ => rfl)
  have a1 : ∀ e : Fin 64, lidx_main_v0 (lidx_main_v3 (ix4 z h s d) t) e = ix4 z h s e := fun e => funext fun a => Fin.ext (by
    match a with
    | ⟨0, _⟩ => rfl
    | ⟨1, _⟩ => rfl
    | ⟨2, _⟩ => rfl
    | ⟨3, _⟩ => rfl)
  have a2 : ∀ e : Fin 64, ridx_main_v0 (lidx_main_v3 (ix4 z h s d) t) e = ix4 z h t e := fun e => funext fun a => Fin.ext (by
    match a with
    | ⟨0, _⟩ => rfl
    | ⟨1, _⟩ => rfl
    | ⟨2, _⟩ => rfl
    | ⟨3, _⟩ => rfl)
  rw [a3, val_main_v2_apply, val_main_v0_apply, val_main_v1_apply, val_main_cst_apply]
  simp only [a1, a2, Ideal.mulf_def, Ideal.ofBits_def]

end Cert.ReferenceIdeal.RefValue

end
-- ==== Proof.FiniteInputs.lean ====
/-
  What the precondition gives: every entry of the three inputs is a real number.

  The printed predicate is the conjunction of three `jnp.all (|x| < +∞)`, one per input. A reduction by `and` that
  comes out 1 met a 1 at every index; an entry whose absolute value compares below `+∞` is neither infinity, and an
  extended real that is neither infinity is a real number.
-/
import proofs.«149450_j89421219103270_1_alg».proof.Proof.Gen.Pre_finite_inputs
import proofs.«149450_j89421219103270_1_alg».proof.Proof.Constants
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.Pre_finite_inputs.Gen

instance : Subsingleton S_.Idx := ⟨fun a b => funext fun d => d.elim0⟩

/-- An extended real whose absolute value compares below `+∞` is a real number. -/
theorem real_of_abs_lt (x : EReal) (h : Ideal.cmp .olt (max x (-x)) (Ideal.ofBits .f32 0x7F800000#32) = 1#1) :
    ∃ r : ℝ, x = r := by
  rw [Cert.Constants.ofBits_inf] at h
  have hlt : max x (-x) < ⊤ := by
    by_contra hn
    simp [Ideal.cmp, hn] at h
  induction x using EReal.rec with
  | bot => simp at hlt
  | coe r => exact ⟨r, rfl⟩
  | top => simp at hlt

/-- Under the precondition every entry of every input is a real number. -/
theorem inputs_real (a0 a1 a2 : FVec Ideal S1x8x4096x64 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.FiniteInputs

end
-- ==== Proof.lean ====
/-
  Scaled attention without a softmax, two ways.

  The reference forms, head by head, the 4096 × 4096 scores `(Q Kᵀ) * 1/8` and multiplies them into the values. The
  kernel never forms the scores: its first pallas_call computes, head by head, the 64 × 64 matrix `(Kᵀ V) * 1/8`, and
  its second multiplies the queries into that matrix. Over the reals the two are the same double sum of
  `q (s, e) * k (t, e) * v (t, d) * 1/8`, taken in two orders (Proof/Reassociate.lean). On the extended reals that
  needs the entries to be real numbers, which is what the precondition says (Proof/FiniteInputs.lean).

  The three frames are the generated ones (the reference's is its generated run with the result dropped), and
  nothing was rewritten by the idealization, so the fourth conjunct is `True`. For the last conjunct the kernel
  program's run is taken once more with its result buffer named at the last boundary's contents
  (Proof/KernelIdealRun.lean); those contents are read back through the final reshape, the two pallas_calls (each leaves
  its output array at one function of its input arrays: Proof/KeyValueRegion.lean, Proof/QueryRegion.lean, over the
  bodies' stored values of Proof/Payloads.lean) and the three entry reshapes to the matrix-first function of the inputs
  (Proof/KernelValue.lean, Proof/Attention.lean); the reference's generated run, read one operation at a time, ends at
  the scores-first function of the same inputs (Proof/Reference.lean); and the two functions agree.
-/
import proofs.«149450_j89421219103270_1_alg».proof.Defs
import proofs.«149450_j89421219103270_1_alg».proof.Proof.Gen.Kernel
import proofs.«149450_j89421219103270_1_alg».proof.Proof.Gen.Kernel.Skeleton
import proofs.«149450_j89421219103270_1_alg».proof.Proof.Gen.Kernel.Launch
import proofs.«149450_j89421219103270_1_alg».proof.Proof.Gen.Kernel.Points
import proofs.«149450_j89421219103270_1_alg».proof.Proof.Gen.Kernel.Frame
import proofs.«149450_j89421219103270_1_alg».proof.Proof.Gen.KernelIdeal
import proofs.«149450_j89421219103270_1_alg».proof.Proof.Gen.KernelIdeal.Skeleton
import proofs.«149450_j89421219103270_1_alg».proof.Proof.Gen.KernelIdeal.Launch
import proofs.«149450_j89421219103270_1_alg».proof.Proof.Gen.KernelIdeal.Points
import proofs.«149450_j89421219103270_1_alg».proof.Proof.Gen.KernelIdeal.Frame
import proofs.«149450_j89421219103270_1_alg».proof.Proof.Gen.ReferenceIdeal
import proofs.«149450_j89421219103270_1_alg».proof.Proof.Gen.ReferenceIdeal.Run
import proofs.«149450_j89421219103270_1_alg».proof.Proof.Gen.ReferenceIdeal.Read
import proofs.«149450_j89421219103270_1_alg».proof.Proof.Gen.Pre_finite_inputs
import proofs.«149450_j89421219103270_1_alg».proof.Proof.KernelIdealRun
import proofs.«149450_j89421219103270_1_alg».proof.Proof.KernelValue
import proofs.«149450_j89421219103270_1_alg».proof.Proof.Reference
import proofs.«149450_j89421219103270_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at one function of the inputs: the kernel's two calls compute the
    matrix-first form, the reference the scores-first form, and with the finite (real) inputs of the precondition the
    two forms are equal. -/
theorem algebraic : Cert.algebraic_KernelIdeal_ReferenceIdeal := by
  intro m ρ m' ρ' hpre hagree
  refine ⟨fun c => Cert.Attention.matrixFirst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_value m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨hq, hk, hv⟩ := Cert.FiniteInputs.inputs_real _ _ _ (hpre c)
    rw [Cert.ReferenceIdeal.Read.val_main_v3_eq, Cert.ReferenceIdeal.RefValue.reference_value,
      (hagree c).1, (hagree c).2.1, (hagree c).2.2]
    exact (Cert.Attention.matrixFirst_eq_scoresFirst _ _ _ hq hk hv).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
